-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg3 : IVec S1600000 32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_c_6 : IVec S_ 32 := constantI S_ 32 4294867296#32
  let main_v19 : IVec S1600000 32 := broadcastInDim S1600000 ![] bcast_S_S1600000 main_c_6
  let main_v20 : IVec S1600000 1 := cmpi .sge main_arg3 main_v19
  let main_c_7 : IVec S_ 1 := constantI S_ 1 1#1
  let main_v21 : IVec S_ 1 := (fun x v => Host.reduce IntOp.andi x v reducesTo_S1600000_S_d0 h_S_) main_v20 main_c_7
  let main_v22 : IVec S_ 1 := andi main_v18 main_v21
  let main_c_8 : IVec S_ 32 := constantI S_ 32 100000#32
  let main_v23 : IVec S1600000 32 := broadcastInDim S1600000 ![] bcast_S_S1600000 main_c_8
  let main_v24 : IVec S1600000 1 := cmpi .slt main_arg3 main_v23
  let main_c_9 : IVec S_ 1 := constantI S_ 1 1#1
  let main_v25 : IVec S_ 1 := (fun x v => Host.reduce IntOp.andi x v reducesTo_S1600000_S_d0 h_S_) main_v24 main_c_9
  let main_v26 : IVec S_ 1 := andi main_v22 main_v25
  main_v26

def fn {F : FTy → Type} [FloatOps F] (main_arg0 : FVec F S100000x64 .f32) (main_arg1 : FVec F S64x64 .f32) (main_arg2 : FVec F S64 .f32) (main_arg3 : IVec S1600000 32) (main_arg4 : IVec S1600000 32) (main_arg5 : FVec F S1600000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1600000 .f32 := Host.absf main_arg5
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg3 main_v13 main_v16
-- ==== Kernel.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S10000x64 : Shape := ⟨2, ![10000, 64]⟩
abbrev S1x64 : Shape := ⟨2, ![1, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩

abbrev nBuf : Space → Nat
  | .hbm => 38
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S1600000, .f32⟩
  | .hbm, ⟨6, _⟩ => ⟨S64x64, .f32⟩
  | .hbm, ⟨7, _⟩ => ⟨S100000x64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1, .i32⟩
  | .hbm, ⟨17, _⟩ => ⟨S_, .i32⟩
  | .hbm, ⟨18, _⟩ => ⟨S1600000x1, .i32⟩
  | .hbm, ⟨19, _⟩ => ⟨S1600000x1, .i1⟩
  | .hbm, ⟨20, _⟩ => ⟨S1x1, .i32⟩
  | .hbm, ⟨21, _⟩ => ⟨S1600000x1, .i32⟩
  | .hbm, ⟨22, _⟩ => ⟨S1600000x1, .i1⟩
  | .hbm, ⟨23, _⟩ => ⟨S1600000x1, .i1⟩
  | .hbm, ⟨24, _⟩ => ⟨S_, .i1⟩
  | .hbm, ⟨25, _⟩ => ⟨S1600000, .i1⟩
  | .hbm, ⟨26, _⟩ => ⟨S1600000x64, .f32⟩
  | .hbm, ⟨27, _⟩ => ⟨S1600000x64, .i1⟩
  | .hbm, ⟨28, _⟩ => ⟨S_, .f32⟩
  | .hbm, ⟨29, _⟩ => ⟨S1600000x64, .f32⟩
  | .hbm, ⟨30, _⟩ => ⟨S1600000x64, .f32⟩
  | .hbm, ⟨31, _⟩ => ⟨S1600000x1, .f32⟩
  | .hbm, ⟨32, _⟩ => ⟨S1600000x64, .f32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S10000x64 : S1x64.Broadcasts S10000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S1x64 : Shape := ⟨2, ![1, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S1600000, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S1600000x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x64, .f32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x64_S64x64_S100000x64_1_1_0_0_n_n_wf : DotDims.WF S100000x64 S64x64 S100000x64 [1] [1] [0] [0] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_1_0_0_n_n : DotDims S100000x64 S64x64 S100000x64 where
  lhsContracting := [1]
  rhsContracting := [1]
  lhsNonContracting := [0]
  rhsNonContracting := [0]
  lhsBatch := []
  rhsBatch := []
  wf := dot_S100000x64_S64x64_S100000x64_1_1_0_0_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Pieces.lean ====
/-
  The message passing after the linear layer, piece by piece.

  For every edge: the source index wrapped the numpy way (`s + 100000` where `s < 0`); the row of a table at that
  index; a fill-mode take, which keeps the row where the wrapped index is a row of the table (0 ≤ index ≤ 99999)
  and puts a fill value elsewhere; and the aggregation, each edge's row scaled by the edge's weight and added into
  the row of the edge's destination, starting from zeros.
-/
import proofs.«423177_j17497696764525_3_alg».proof.Proof.Gen.KernelIdeal
import Idealize.ShloMosaic.PureOps.Ideal

noncomputable section

open Idealize.ShloMosaic

namespace Cert.Gcn.Tail

open Cert.KernelIdeal

/-- The source indices, wrapped, as the one-column table of start indices a gather reads. -/
def srcCol (src : IVec S1600000 32) : IVec S1600000x1 32 :=
  broadcastInDim S1600000x1 ![0] Facts₀.bcast_S1600000_S1600000x1_0
    (select (cmpi .slt src (broadcastInDim S1600000 ![] Facts₀.bcast_S_S1600000 (constantI S_ 32 0#32)))
      (addi src (broadcastInDim S1600000 ![] Facts₀.bcast_S_S1600000 (constantI S_ 32 100000#32))) src)

/-- Per row of a one-column table of start indices: is the index a row of the table, 0 ≤ index ≤ 99999? -/
def rowTest (col : IVec S1600000x1 32) : IVec S1600000 1 :=
  Host.reduce IntOp.andi
    (andi (cmpi .sge col (broadcastInDim S1600000x1 ![] Facts₀.bcast_S_S1600000x1 (constantI S_ 32 0#32)))
      (cmpi .sle col (broadcastInDim S1600000x1 ![0, 1] Facts₀.bcast_S1x1_S1600000x1_0_1
        (broadcastInDim S1x1 ![1] Facts₀.bcast_S1_S1x1_1 (constantI S1 32 99999#32)))))
    (constantI S_ 1 1#1) Facts₀.reducesTo_S1600000x1_S1600000_d1 Facts₀.h_S_

/-- Per edge: is the wrapped source index a row of the table? -/
def inRows (src : IVec S1600000 32) : IVec S1600000 1 := rowTest (srcCol src)

/-- The rows of the table at a one-column table of start indices (a gather clamps a start index into the table). -/
def rowsAt (table : FVec Ideal S100000x64 .f32) (col : IVec S1600000x1 32) : FVec Ideal S1600000x64 .f32 :=
  Host.gather gather_S100000x64_S1600000x1_S1600000x64_1_0_n_n_0_1_164 table col

/-- The rows of the table at the wrapped source indices. -/
def takePlain (table : FVec Ideal S100000x64 .f32) (src : IVec S1600000 32) : FVec Ideal S1600000x64 .f32 :=
  rowsAt table (srcCol src)

/-- Keep a row where its edge passes the test, put the fill value on the other edges. -/
def fillWhere (ok : IVec S1600000 1) (rows : FVec Ideal S1600000x64 .f32) : FVec Ideal S1600000x64 .f32 :=
  select (broadcastInDim S1600000x64 ![0] Facts₀.bcast_S1600000_S1600000x64_0 ok) rows
    (broadcastInDim S1600000x64 ![] Facts₀.bcast_S_S1600000x64 (constant S_ .f32 0x7FC00000#32))

/-- The fill-mode take. -/
def takeFill (table : FVec Ideal S100000x64 .f32) (src : IVec S1600000 32) : FVec Ideal S1600000x64 .f32 :=
  fillWhere (inRows src) (takePlain table src)

/-- Each edge's row scaled by the edge's weight and added into the destination's row of an array of zeros. -/
def aggregate (rows : FVec Ideal S1600000x64 .f32) (dst : IVec S1600000 32) (weight : FVec Ideal S1600000 .f32) :
    FVec Ideal S100000x64 .f32 :=
  Host.scatterAdd scatter_S100000x64_S1600000x1_S1600000x64_1_0_0_1
    (broadcastInDim S100000x64 ![] Facts₀.bcast_S_S100000x64 (constant S_ .f32 0x00000000#32))
    (broadcastInDim S1600000x1 ![0] Facts₀.bcast_S1600000_S1600000x1_0 dst)
    (mulf (broadcastInDim S1600000x64 ![0, 1] Facts₀.bcast_S1600000x1_S1600000x64_0_1
        (broadcastInDim S1600000x1 ![0] Facts₀.bcast_S1600000_S1600000x1_0 weight)) rows)

end Cert.Gcn.Tail

end
-- ==== Proof.Tail.lean ====
/-
  The message passing after the linear layer, in the kernel's program.

  After the tiled linear layer the program takes, for every edge, the row of the layer's result at the edge's source
  (a fill-mode take), scales the row by the edge's weight, and adds it into the output row of the edge's destination.
  These are the host operations after the region: 23 for the take and 7 for the rest.  The take is read in two
  steps: its first eighteen operations make the wrapped source column and, from it, the per-edge row test; its
  last five gather the rows and put the fill value where the test fails.  Read back over any buffer contents,
      the take's result    = takeFill layer src
      the program's result = aggregate taken dst weight.
-/
import proofs.«423177_j17497696764525_3_alg».proof.Proof.Gen.KernelIdeal.Frame
import proofs.«423177_j17497696764525_3_alg».proof.Proof.Pieces
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem

namespace Cert.Gcn.Tail

open Cert.KernelIdeal Cert.KernelIdeal.Gen

/-! ## The take, in two steps -/

/-- The take's operations up to and including the per-edge row test. -/
abbrev upToTest : List (HloOp τ sig (Elt Ideal)) := (hostOps1 (F := Ideal)).take 18
/-- Its remaining operations: the gather, the fill value, the select. -/
abbrev fromGather : List (HloOp τ sig (Elt Ideal)) := (hostOps1 (F := Ideal)).drop 18

theorem take_split : hostOps1 (F := Ideal) = upToTest ++ fromGather := (List.take_append_drop 18 _).symm

set_option maxHeartbeats 1000000 in
/-- After the first eighteen operations the test's buffer holds, per edge, whether the wrapped source index is a row. -/
theorem test_value (W : Valuation τ sig (Elt Ideal)) :
    StableHlo.after upToTest W (Proc.devRef .tc main_call0_v12) = inRows (W (Proc.devRef .tc main_arg3)) := by
  unfold upToTest
  simp only [hostOps1, List.take_succ_cons, List.take_zero]
  after_results
  exact (cast_eq _ _).trans rfl

set_option maxHeartbeats 1000000 in
/-- and the start-index buffer the wrapped source column; -/
theorem column_value (W : Valuation τ sig (Elt Ideal)) :
    StableHlo.after upToTest W (Proc.devRef .tc main_call0_v5) = srcCol (W (Proc.devRef .tc main_arg3)) := by
  unfold upToTest
  simp only [hostOps1, List.take_succ_cons, List.take_zero]
  after_results
  exact (cast_eq _ _).trans rfl

set_option maxHeartbeats 1000000 in
/-- the layer's result array is not written. -/
theorem layer_kept (W : Valuation τ sig (Elt Ideal)) :
    StableHlo.after upToTest W (Proc.devRef .tc main_v1) = W (Proc.devRef .tc main_v1) := by
  unfold upToTest
  simp only [hostOps1, List.take_succ_cons, List.take_zero]
  after_results <;> rfl

set_option maxHeartbeats 1000000 in
/-- The last five operations: the rows of the layer's array at the start indices, kept where the test holds. -/
theorem fill_value (W : Valuation τ sig (Elt Ideal)) :
    StableHlo.after fromGather W (Proc.devRef .tc main_v2)
      = fillWhere (W (Proc.devRef .tc main_call0_v12)) (rowsAt (W (Proc.devRef .tc main_v1)) (W (Proc.devRef .tc main_call0_v5))) := by
  unfold fromGather
  simp only [hostOps1, List.drop_succ_cons, List.drop_zero]
  after_results
  exact (cast_eq _ _).trans rfl

/-- The take's 23 operations leave, in its result buffer, the fill-mode take of the layer's array at the sources. -/
theorem take_stretch (W : Valuation τ sig (Elt Ideal)) :
    StableHlo.after (hostOps1 (F := Ideal)) W (Proc.devRef .tc main_v2)
      = takeFill (W (Proc.devRef .tc main_v1)) (W (Proc.devRef .tc main_arg3)) := by
  rw [take_split, StableHlo.after_append, fill_value, test_value, column_value, layer_kept]
  rfl

set_option maxHeartbeats 2000000 in
/-- They write neither the destinations nor the weights. -/
theorem take_keeps_dst (W : Valuation τ sig (Elt Ideal)) :
    StableHlo.after (hostOps1 (F := Ideal)) W (Proc.devRef .tc main_arg4) = W (Proc.devRef .tc main_arg4) := by
  after_results <;> rfl

set_option maxHeartbeats 2000000 in
theorem take_keeps_weight (W : Valuation τ sig (Elt Ideal)) :
    StableHlo.after (hostOps1 (F := Ideal)) W (Proc.devRef .tc main_arg5) = W (Proc.devRef .tc main_arg5) := by
  after_results <;> rfl

/-! ## The rest -/

set_option maxHeartbeats 1000000 in
/-- The last 7 operations leave, in the program's result buffer, the weighted scatter-add of the taken rows. -/
theorem last_stretch (W : Valuation τ sig (Elt Ideal)) :
    StableHlo.after (hostOps1_1 (F := Ideal)) W (Proc.devRef .tc main_v8)
      = aggregate (W (Proc.devRef .tc main_v2)) (W (Proc.devRef .tc main_arg4)) (W (Proc.devRef .tc main_arg5)) := by
  after_results <;> rfl

end Cert.Gcn.Tail

end
-- ==== Proof.LibAllOnes.lean ====
/-
  Truth values that are all ones, and index words in a range.

  A reduction by `and` from a true initial value over an array of truth values that are all true is true (the
  converse of reading a `jnp.all` back). A 32-bit word that is at least zero and below `n` as a SIGNED number is
  below `n` unsigned; such a word is not negative, so the test "negative?" answers false on it and the tests
  "at least zero?" and "at most n − 1?" answer true.
-/
import Idealize.ShloMosaic.Lib.ReduceAll
import Idealize.ShloMosaic.Lib.StableHlo.Predicate
import Idealize.ShloMosaic.Lib.ValueIdx

noncomputable section

namespace Cert.LibAllOnes

open Idealize.ShloMosaic Idealize.ShloMosaic.StableHlo.Predicate

/-- A left fold by `and` from true over true values is true. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A `stablehlo.reduce` by `and` from a true initial value over an array that is true everywhere is true. -/
theorem reduce_andi_ones {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_ones x hx _

/-- A word in [0, n) as a signed number is below n unsigned. -/
theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  unfold IntOp.cmpi at h0 h1
  rw [ofBool_eq_one_iff] at h0 h1
  simp only [BitVec.slt, BitVec.sle, decide_eq_true_eq] at h0 h1
  have h32 := w.isLt
  unfold BitVec.toInt at h0 h1
  split at h1 <;> simp at h0 h1 <;> omega

/-- A word below 2³¹ is not negative: the signed test against zero answers false. -/
theorem slt_zero (w : BitVec 32) (hw : w.toNat < 2 ^ 31) : IntOp.cmpi .slt w (0#32) = 0#1 := by
  refine ValueIdx.eq_zero_of_ne_one fun h => ?_
  have := (slt_iff_toNat (a := w) (b := 0#32) hw (by decide)).1 h
  simp at this

/-- A word below 2³¹ is at least zero as a signed number. -/
theorem sge_zero (w : BitVec 32) (hw : w.toNat < 2 ^ 31) : IntOp.cmpi .sge w (0#32) = 1#1 :=
  (sge_iff_toNat (a := w) (b := 0#32) hw (by decide)).2 (by simp)

/-- A word at most `n` (below 2³¹) is at most `n` as a signed number. -/
theorem sle_ofNat (w : BitVec 32) (n : Nat) (hn : n < 2 ^ 31) (hw : w.toNat ≤ n) : IntOp.cmpi .sle w (BitVec.ofNat 32 n) = 1#1 := by
  have hb : (BitVec.ofNat 32 n).toNat = n := by simp [BitVec.toNat_ofNat]; omega
  exact (sle_iff_toNat (a := w) (b := BitVec.ofNat 32 n) (by omega) (by omega)).2 (by omega)

end Cert.LibAllOnes

end
-- ==== Proof.Wrap.lean ====
/-
  A row index in [-100000, 100000), wrapped the numpy way, is a row of the table.

  Both programs turn a source index `s` into  `if s < 0 then s + 100000 else s`  (signed 32-bit words) before they
  gather.  If -100000 ≤ s < 100000 the result lies in [0, 99999]: a non-negative `s` is kept and is below 100000;
  a negative one is at least -100000, so adding 100000 does not wrap around and gives a number in [0, 99999].
  So the two range tests a fill-mode gather makes on the wrapped index, "at least 0" and "at most 99999", both answer
  true, and so does their conjunction.
-/
import proofs.«423177_j17497696764525_3_alg».proof.Proof.LibAllOnes

noncomputable section

namespace Cert.Gcn.Wrap

open Idealize.ShloMosaic Idealize.ShloMosaic.StableHlo.Predicate

/-- The wrapped index. -/
abbrev wrap (s : BitVec 32) : BitVec 32 := Scalar.select (IntOp.cmpi .slt s 0#32) (IntOp.addi s 100000#32) s

/-- Signed -100000 ≤ s < 100000, as unsigned words: s is below 100000, or within 100000 of the top. -/
theorem range_cases (s : BitVec 32) (hlo : IntOp.cmpi .sge s 4294867296#32 = 1#1) (hhi : IntOp.cmpi .slt s 100000#32 = 1#1) :
    s.toNat < 100000 ∨ 4294867296 ≤ s.toNat := by
  unfold IntOp.cmpi at hlo hhi
  rw [ofBool_eq_one_iff] at hlo hhi
  simp only [BitVec.slt, BitVec.sle, decide_eq_true_eq] at hlo hhi
  have h32 := s.isLt
  have e1 : (4294867296#32 : BitVec 32).toInt = -100000 := by decide
  have e2 : (100000#32 : BitVec 32).toInt = 100000 := by decide
  rw [e1] at hlo
  rw [e2] at hhi
  unfold BitVec.toInt at hlo hhi
  split at hlo <;> simp at hlo hhi <;> omega

/-- A word within 100000 of the top is negative as a signed number. -/
theorem slt_zero_of_top (s : BitVec 32) (h : 4294867296 ≤ s.toNat) : IntOp.cmpi .slt s 0#32 = 1#1 := by
  unfold IntOp.cmpi
  rw [ofBool_eq_one_iff]
  simp only [BitVec.slt, decide_eq_true_eq]
  have h32 := s.isLt
  unfold BitVec.toInt
  split <;> simp <;> omega

/-- Adding 100000 to such a word wraps it to a number below 100000. -/
theorem add_of_top (s : BitVec 32) (h : 4294867296 ≤ s.toNat) : (IntOp.addi s 100000#32).toNat < 100000 := by
  unfold IntOp.addi
  rw [BitVec.toNat_add]
  have h32 := s.isLt
  have e : (100000#32 : BitVec 32).toNat = 100000 := by decide
  rw [e]
  omega

/-- The wrapped index is below 100000 as an unsigned word. -/
theorem wrap_lt (s : BitVec 32) (hlo : IntOp.cmpi .sge s 4294867296#32 = 1#1) (hhi : IntOp.cmpi .slt s 100000#32 = 1#1) :
    (wrap s).toNat < 100000 := by
  rcases range_cases s hlo hhi with h | h
  · show (Scalar.select (IntOp.cmpi .slt s 0#32) (IntOp.addi s 100000#32) s).toNat < 100000
    rw [Cert.LibAllOnes.slt_zero s (by omega), ValueIdx.select_zero]
    exact h
  · show (Scalar.select (IntOp.cmpi .slt s 0#32) (IntOp.addi s 100000#32) s).toNat < 100000
    rw [slt_zero_of_top s h, ValueIdx.select_one]
    exact add_of_top s h

/-- Both range tests of a fill-mode gather answer true on the wrapped index. -/
theorem tests_true (s : BitVec 32) (hlo : IntOp.cmpi .sge s 4294867296#32 = 1#1) (hhi : IntOp.cmpi .slt s 100000#32 = 1#1) :
    IntOp.andi (IntOp.cmpi .sge (wrap s) 0#32) (IntOp.cmpi .sle (wrap s) 99999#32) = 1#1 := by
  have h := wrap_lt s hlo hhi
  rw [Cert.LibAllOnes.sge_zero (wrap s) (by omega),
    show (99999#32 : BitVec 32) = BitVec.ofNat 32 99999 from rfl,
    Cert.LibAllOnes.sle_ofNat (wrap s) 99999 (by decide) (by omega)]
  decide

end Cert.Gcn.Wrap

end
-- ==== Proof.Mask.lean ====
/-
  With every source index in [-100000, 100000) the fill-mode take never fills.

  The wrapped index of every edge is then a row of the table (Wrap.lean), so the two range tests are true on every
  entry of the one-column index table, their reduction by `and` along the unit axis is true at every edge, and the
  select that would put the fill value keeps the gathered row everywhere: the fill-mode take IS the plain take.
-/
import proofs.«423177_j17497696764525_3_alg».proof.Proof.Pieces
import proofs.«423177_j17497696764525_3_alg».proof.Proof.Wrap
import proofs.«423177_j17497696764525_3_alg».proof.Proof.LibAllOnes
import Idealize.ShloMosaic.Lib.Pipeline.Value
import Idealize.ShloMosaic.Lib.ValueIdx

noncomputable section

open Idealize.ShloMosaic Idealize.ShloMosaic.ValueIdx

namespace Cert.Gcn.Tail

open Cert.KernelIdeal Cert.KernelIdeal.Gen

/-- Every source word is at least -100000 and below 100000, as signed numbers. -/
def SrcInRange (src : IVec S1600000 32) : Prop :=
  ∀ e : S1600000.Idx, IntOp.cmpi .sge (src e) 4294867296#32 = 1#1 ∧ IntOp.cmpi .slt (src e) 100000#32 = 1#1

/-- Row e of the start-index table is the wrapped source index of edge e. -/
theorem srcCol_apply (src : IVec S1600000 32) (i : S1600000x1.Idx) :
    srcCol src i = Cert.Gcn.Wrap.wrap (src (ix1 (i 0 : Fin 1600000))) := by
  unfold srcCol
  rw [broadcastInDim_apply _ Facts₀.bcast_S1600000_S1600000x1_0 _ i (ix1 (i 0 : Fin 1600000)) (fun a => by
    match a with
    | ⟨0, _⟩ => show (i 0).val = if (1600000 : Nat) = 1 then 0 else (i 0).val; rw [if_neg (by decide)])]
  rfl

/-- The per-edge test is true at every edge. -/
theorem inRows_true (src : IVec S1600000 32) (hsrc : SrcInRange src) (e : S1600000.Idx) : inRows src e = 1#1 := by
  unfold inRows rowTest
  refine Cert.LibAllOnes.reduce_andi_ones _ _ _ _ e (fun _ => rfl) (fun i => ?_)
  show IntOp.andi (IntOp.cmpi .sge (srcCol src i) 0#32) (IntOp.cmpi .sle (srcCol src i) 99999#32) = 1#1
  rw [srcCol_apply]
  exact Cert.Gcn.Wrap.tests_true _ (hsrc _).1 (hsrc _).2

/-- So the fill-mode take is the plain take. -/
theorem takeFill_eq_takePlain (table : FVec Ideal S100000x64 .f32) (src : IVec S1600000 32) (hsrc : SrcInRange src) :
    takeFill table src = takePlain table src := by
  funext j
  unfold takeFill fillWhere
  rw [select_apply,
    broadcastInDim_apply _ Facts₀.bcast_S1600000_S1600000x64_0 (inRows src) j (ix1 (j 0 : Fin 1600000)) (fun a => by
      match a with
      | ⟨0, _⟩ => show (j 0).val = if (1600000 : Nat) = 1 then 0 else (j 0).val; rw [if_neg (by decide)]),
    inRows_true src hsrc, select_one]

end Cert.Gcn.Tail

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.Payload.lean ====
/-
  One grid point of the tiled linear layer, read at an entry.

  The body multiplies its 10000 × 64 block of node features by the (already transposed) 64 × 64 weights into a zero
  accumulator and adds the bias broadcast along the rows.  The two narrowings to bfloat16 are the identity on the
  extended reals, the reshapes of the bias (64 → 1 × 64 → 1 × 64) keep its entries, so entry (p, q) of what the body
  stores is  Σ_k xblk[p, k] · wt[k, q] + b[q].
-/
import proofs.«423177_j17497696764525_3_alg».proof.Proof.Gen.KernelIdeal.Skeleton
import proofs.«423177_j17497696764525_3_alg».proof.Proof.LibPlainDot
import Idealize.ShloMosaic.Lib.Pipeline.Value
import Idealize.ShloMosaic.Lib.ValueIdx

noncomputable section

namespace Cert.Gcn.Body

open Idealize.ShloMosaic Idealize.ShloMosaic.ValueIdx Cert.KernelIdeal Cert.KernelIdeal.Gen

/-- The bias, reshaped to one row and broadcast to every row of the block, is b[q] at column q. -/
theorem bias_apply (b : FVec Ideal S64 .f32) (p : Fin 10000) (q : Fin 64) :
    broadcastTo S10000x64 (shapeCast S1x64 (shapeCast S1x64 b Facts₀.shapeCasts_S64_S1x64) Facts₀.shapeCasts_S1x64_S1x64)
      Facts₀.broadcasts_S1x64_S10000x64 (ix2 p q) = b (ix1 q) := by
  rw [shapeCast_self]
  rw [broadcastTo_apply _ Facts₀.broadcasts_S1x64_S10000x64 (ix2 p q) (ix2 (0 : Fin 1) q) (fun a => by
    match a with
    | ⟨0, _⟩ => rfl
    | ⟨1, _⟩ => rfl)]
  exact shapeCast_apply b Facts₀.shapeCasts_S64_S1x64 (ix2 (0 : Fin 1) q) (ix1 q) (by
    rw [Shape.rowMajor_val_one, Shape.rowMajor_val_two]
    show (q : Nat) = 0 * 64 + (q : Nat)
    omega)

/-- Entry (p, q) of what the body stores: the block's row p against column q of the transposed weights, plus b[q]. -/
theorem pay_apply (xb : Vec Ideal S10000x64 .f32) (wt : Vec Ideal S64x64 .f32) (b : Vec Ideal S64 .f32) (p : Fin 10000) (q : Fin 64) :
    k0_pay1 (F := Ideal) xb wt b (ix2 p q) = (∑ k : Fin 64, xb (ix2 p k) * wt (ix2 k q)) + b (ix1 q) := by
  unfold k0_pay1
  rw [addf_apply, bias_apply, shapeCast_self]
  exact congrArg (· + b (ix1 q))
    (Cert.LibPlainDot.matmul_zero_apply dot_S10000x64_S64x64_S10000x64_1_0_0_1_n_n rfl rfl rfl rfl rfl rfl none _ _ p q)

end Cert.Gcn.Body

end
-- ==== Proof.Support.lean ====
/-
  The linear layer of the graph convolution, as one function of its three arrays.

  For a node `n` and an output feature `o` the layer's value is the inner product of row `n` of the node features
  with row `o` of the weights, plus the bias at `o`:  support[n, o] = Σ_k x[n, k] · W[o, k] + b[o].
  Both programs compute this array first (one by a tiled matrix product against the transposed weights, the other by
  one contraction of the two second axes) and then do the same gather / weight / scatter-add on it.
-/
import Idealize.ShloMosaic.PureOps.Ideal.Laws
import Idealize.ShloMosaic.Lib.ValueIdx

noncomputable section

namespace Cert.Gcn

open Idealize.ShloMosaic Idealize.ShloMosaic.ValueIdx

/-- support[n, o] = Σ_k x[n, k] · W[o, k] + b[o], over the extended reals. -/
def support (x : FVec Ideal ⟨2, ![100000, 64]⟩ .f32) (W : FVec Ideal ⟨2, ![64, 64]⟩ .f32) (b : FVec Ideal ⟨1, ![64]⟩ .f32) :
    FVec Ideal ⟨2, ![100000, 64]⟩ .f32 :=
  fun i => (∑ k : Fin 64, x (ix2 (i 0 : Fin 100000) k) * W (ix2 (i 1 : Fin 64) k)) + b (ix1 (i 1 : Fin 64))

/-- The same at coordinates. -/
theorem support_apply (x : FVec Ideal ⟨2, ![100000, 64]⟩ .f32) (W : FVec Ideal ⟨2, ![64, 64]⟩ .f32) (b : FVec Ideal ⟨1, ![64]⟩ .f32)
    (n : Fin 100000) (o : Fin 64) :
    support x W b (ix2 n o) = (∑ k : Fin 64, x (ix2 n k) * W (ix2 o k)) + b (ix1 o) := rfl

end Cert.Gcn

end
-- ==== Proof.KernelArray.lean ====
/-
  What the tiled linear layer leaves in its result array.

  The grid has ten points; point `t` reads rows 10000·t … 10000·t + 9999 of the node features, the whole 64 × 64
  transposed weights and the whole bias, and writes the same rows of the result.  The weights the region finds are the
  transpose of the second argument (the one host operation before the region), so entry (k, q) of them is W[q, k] and
  the body's  Σ_k xblk[p, k] · wt[k, q] + b[q]  is  support[10000·t + p, q].  Every row lies in exactly the block of
  t = row / 10000, so the ten write-backs cover the array and it ends holding `support` of the three arguments.
-/
import proofs.«423177_j17497696764525_3_alg».proof.Proof.Gen.KernelIdeal.Frame
import proofs.«423177_j17497696764525_3_alg».proof.Proof.Payload
import proofs.«423177_j17497696764525_3_alg».proof.Proof.Support
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Gcn.Kern

open Cert.KernelIdeal Cert.KernelIdeal.Gen

variable (m : (ℓ : Loc nD τ sig) → Buf (Elt Ideal) ℓ)

/-- The node features, the weights and the bias as launched. -/
abbrev argX (c : Dev nD) : FVec Ideal S100000x64 .f32 := m ((c : Thread nD τ).loc main_arg0)
abbrev argW (c : Dev nD) : FVec Ideal S64x64 .f32 := m ((c : Thread nD τ).loc main_arg1)
abbrev argB (c : Dev nD) : FVec Ideal S64 .f32 := m ((c : Thread nD τ).loc main_arg2)

/-! ## The transposed weights -/

/-- The region finds, in its second window's array, the transpose of the weights. -/
theorem wt_eq (c : Dev nD) :
    (V m c main_v0 : S64x64.Idx → Elt Ideal .f32) = transpose S64x64 [1, 0] (argW m c) Facts₀.transposes_S64x64_S64x64_1_0 := by
  show StableHlo.after hostOps0 (fun b => m (c, b)) (Proc.devRef .tc main_v0) = _
  after_results <;> rfl

/-- Entry y of it, with y = (k, q), is W[q, k]. -/
theorem wt_apply (c : Dev nD) (y : S64x64.Idx) (k q : Fin 64) (h0 : (y 0).val = k.val) (h1 : (y 1).val = q.val) :
    (V m c main_v0 : S64x64.Idx → Elt Ideal .f32) y = argW m c (ix2 q k) := by
  rw [wt_eq]
  exact transpose_apply [1, 0] (argW m c) Facts₀.transposes_S64x64_S64x64_1_0 y (ix2 q k) (fun b => by
    match b with
    | ⟨0, _⟩ => exact h0.symm
    | ⟨1, _⟩ => exact h1.symm)

/-! ## The blocks of a grid point -/

/-- Where each window's block sits at point t: the features' and the result's at block row t, the others at 0. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem point_lt (t : Fin cfg0.N) : t.val < 10 := by
  have h : t.val < cfg0.N := t.isLt
  have e : cfg0.N = 10 := N_0
  omega

/-- Row p of point t's block of node features is row 10000·t + p of the array. -/
theorem xblk_apply (c : Dev nD) (t : Fin cfg0.N) (p : Fin 10000) (k : Fin 64) (n : Fin 100000) (hn : n.val = 10000 * t.val + p.val) :
    (iblk m c 0 t : Vec Ideal S10000x64 .f32) (ix2 p k) = argX m c (ix2 n k) := by
  obtain ⟨e0, e1, -⟩ := block_index t
  unfold iblk
  rw [View.read_apply]
  show V m c main_arg0 _ = _
  rw [V_main_arg0]
  refine congrArg (argX m c) (funext fun a => Fin.ext ?_)
  match a with
  | ⟨0, _⟩ => show win0_0.index t 0 * 10000 + 1 * p.val = n.val; rw [e0, hn]; omega
  | ⟨1, _⟩ => show win0_0.index t 1 * 64 + 1 * k.val = k.val; rw [e1]; omega

/-- The weights' block is the whole transposed matrix at every point. -/
theorem wblk_apply (c : Dev nD) (t : Fin cfg0.N) (k q : Fin 64) :
    (iblk m c 1 t : Vec Ideal S64x64 .f32) (ix2 k q) = argW m c (ix2 q k) := by
  obtain ⟨-, -, e2, e3, -⟩ := block_index t
  unfold iblk
  rw [View.read_apply]
  refine wt_apply m c _ k q ?_ ?_
  · show win0_1.index t 0 * 64 + 1 * k.val = k.val; rw [e2]; omega
  · show win0_1.index t 1 * 64 + 1 * q.val = q.val; rw [e3]; omega

/-- The bias' block is the whole bias at every point. -/
theorem bblk_apply (c : Dev nD) (t : Fin cfg0.N) (q : Fin 64) :
    (iblk m c 2 t : Vec Ideal S64 .f32) (ix1 q) = argB m c (ix1 q) := by
  obtain ⟨-, -, -, -, e4, -⟩ := block_index t
  unfold iblk
  rw [View.read_apply]
  show V m c main_arg2 _ = _
  rw [V_main_arg2]
  refine congrArg (argB m c) (funext fun a => Fin.ext ?_)
  match a with
  | ⟨0, _⟩ => show win0_2.index t 0 * 64 + 1 * q.val = q.val; rw [e4]; omega

/-! ## What a point writes back, and the whole array -/

theorem zero2 : (![0, 0] : Fin 2 → Nat) = fun _ => 0 := funext fun a => by fin_cases a <;> rfl
theorem zero1 : (![0] : Fin 1 → Nat) = fun _ => 0 := funext fun a => by fin_cases a <;> rfl

/-- Point t writes back rows 10000·t … 10000·t + 9999 of `support`. -/
theorem rows_written (c : Dev nD) (t : Fin cfg0.N) :
    (dats m 0 c).flushed 3 t = ((cfg0.win 3).blk t).view.read (Elt Ideal) (Cert.Gcn.support (argX m c) (argW m c) (argB m c)) := by
  show (cfg0.win 3).cut (grid0.coords t) ((dats m 0 c).after 3 t) = _
  rw [after0_3]
  unfold out0_3
  rw [View.canon_unit_zero zero2]
  simp only [View.ld_unit_zero (S := S10000x64) zero2, View.ld_unit_zero (S := S64x64) zero2, View.ld_unit_zero (S := S64) zero1]
  obtain ⟨-, -, -, -, -, e5, e6⟩ := block_index t
  have ht := point_lt t
  funext j
  obtain ⟨p, q, rfl⟩ : ∃ (p : Fin 10000) (q : Fin 64), j = ix2 p q := ⟨j 0, j 1, eq_ix2 j⟩
  have hp := p.isLt
  show k0_pay1 (F := Ideal) (iblk m c 0 t) (iblk m c 1 t) (iblk m c 2 t) (ix2 p q)
      = Cert.Gcn.support (argX m c) (argW m c) (argB m c) (((cfg0.win 3).blk t).view.emb (ix2 p q))
  have hemb : ((cfg0.win 3).blk t).view.emb (ix2 p q) = ix2 (⟨10000 * t.val + p.val, by omega⟩ : Fin 100000) q := by
    funext a; apply Fin.ext
    match a with
    | ⟨0, _⟩ => show win0_3.index t 0 * 10000 + 1 * p.val = 10000 * t.val + p.val; rw [e5]; omega
    | ⟨1, _⟩ => show win0_3.index t 1 * 64 + 1 * q.val = q.val; rw [e6]; omega
  rw [hemb, Cert.Gcn.support_apply]
  refine (Cert.Gcn.Body.pay_apply (iblk m c 0 t) (iblk m c 1 t) (iblk m c 2 t) p q).trans ?_
  exact congrArg₂ (· + ·)
    (Finset.sum_congr rfl fun k _ => congrArg₂ (· * ·) (xblk_apply m c t p k _ rfl) (wblk_apply m c t k q))
    (bblk_apply m c t q)

/-- An entry is in point t's block iff each coordinate is in the block's range. -/
theorem in_block (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v1).slice (win0_3.rect t)).set ↔ _
  rw [View.set_slice_whole, Rect.mem_set_unit]
  exact Iff.rfl

/-- Row r is written by point r / 10000. -/
theorem covered (i : S100000x64.Idx) : ∃ t : Fin cfg0.N, (cfg0.win 3).flush t = true ∧ i ∈ ((cfg0.win 3).blk t).view.set := by
  have h0 : (i 0).val < 100000 := (i 0).isLt
  have h1 : (i 1).val < 64 := (i 1).isLt
  let t : Fin cfg0.N := ⟨(i 0).val / 10000, by rw [show cfg0.N = 10 from N_0]; omega⟩
  obtain ⟨-, -, -, -, -, e5, e6⟩ := block_index t
  have tv : t.val = (i 0).val / 10000 := rfl
  refine ⟨t, flush0_3 t, ?_⟩
  rw [in_block]
  intro a
  match a with
  | ⟨0, _⟩ => show win0_3.index t 0 * 10000 ≤ (i 0).val ∧ (i 0).val < win0_3.index t 0 * 10000 + 10000; rw [e5, tv]; omega
  | ⟨1, _⟩ => show win0_3.index t 1 * 64 ≤ (i 1).val ∧ (i 1).val < win0_3.index t 1 * 64 + 64; rw [e6]; omega

/-- The result array of the linear layer, after the ten points, is `support` of the three arguments. -/
theorem support_array (c : Dev nD) :
    (dats m 0 c).arrAt 3 cfg0.N = Cert.Gcn.support (argX m c) (argW m c) (argB m c) :=
  (dats m 0 c).arrAt_eq_of_cover 3 _ (fun t _ => rows_written m c t) covered

end Cert.Gcn.Kern

end
-- ==== Proof.KernelResult.lean ====
/-
  The kernel program's result.

  When the region exits, the layer's result array holds `support` of the first three arguments and every other
  buffer what it held at the region's entry — in particular the sources, the destinations and the weights are as
  launched.  The take's operations then write only their own buffers, the last operations read the taken rows, the
  destinations and the weights, so the program's result is
      aggregate (takeFill (support x W b) src) dst weight
  and, where every source index is in [-100000, 100000), the same with the plain take.
-/
import proofs.«423177_j17497696764525_3_alg».proof.Proof.Tail
import proofs.«423177_j17497696764525_3_alg».proof.Proof.Mask
import proofs.«423177_j17497696764525_3_alg».proof.Proof.KernelArray

set_option maxRecDepth 65536

noncomputable section

open Idealize.ShloMosaic Idealize.ShloMosaic.TcCoe Idealize.SL.Sem
open Idealize.ShloMosaic.Pipeline (Dat)

namespace Cert.Gcn.Kern

open Cert.KernelIdeal Cert.KernelIdeal.Gen Cert.Gcn.Tail

variable (m : (ℓ : Loc nD τ sig) → Buf (Elt Ideal) ℓ)

/-- The edges' sources, destinations and weights as launched. -/
abbrev argSrc (c : Dev nD) : IVec S1600000 32 := m ((c : Thread nD τ).loc main_arg3)
abbrev argDst (c : Dev nD) : IVec S1600000 32 := m ((c : Thread nD τ).loc main_arg4)
abbrev argWeight (c : Dev nD) : FVec Ideal S1600000 .f32 := m ((c : Thread nD τ).loc main_arg5)

/-- The device's buffers when the region exits: the region's arrays after the ten write-backs, the rest as at entry. -/
abbrev atExit (c : Dev nD) : Valuation τ sig (Elt Ideal) :=
  Pipeline.withArrays spec0 c (V0 m c) fun w => (dats m 0 c).arrAt w cfg0.N

theorem exit_layer (c : Dev nD) :
    atExit m c (Proc.devRef .tc main_v1) = Cert.Gcn.support (argX m c) (argW m c) (argB m c) :=
  (Pipeline.withArrays_arr spec0 launch0.win.arr_inj c _ _ 3).trans (support_array m c)

theorem exit_src (c : Dev nD) : atExit m c (Proc.devRef .tc main_arg3) = argSrc m c :=
  (Pipeline.withArrays_of_ne spec0 c (V0 m c) _ main_arg3
    (by exact (by decide : ∀ w, Pipeline.arrRef spec0 w ≠ main_arg3))).trans (V_main_arg3 m c)

theorem exit_dst (c : Dev nD) : atExit m c (Proc.devRef .tc main_arg4) = argDst m c :=
  (Pipeline.withArrays_of_ne spec0 c (V0 m c) _ main_arg4
    (by exact (by decide : ∀ w, Pipeline.arrRef spec0 w ≠ main_arg4))).trans (V_main_arg4 m c)

theorem exit_weight (c : Dev nD) : atExit m c (Proc.devRef .tc main_arg5) = argWeight m c :=
  (Pipeline.withArrays_of_ne spec0 c (V0 m c) _ main_arg5
    (by exact (by decide : ∀ w, Pipeline.arrRef spec0 w ≠ main_arg5))).trans (V_main_arg5 m c)

/-- The program's result buffer after the host operations that follow the region. -/
theorem result_eq (c : Dev nD) :
    Pipeline.afterTail₀ cfgs (dats m) 0 (V0 m) [hostOps1, hostOps1_1] c main_v8
      = aggregate (takeFill (Cert.Gcn.support (argX m c) (argW m c) (argB m c)) (argSrc m c)) (argDst m c) (argWeight m c) := by
  unfold Pipeline.afterTail₀
  have hl : ([hostOps1 (F := Ideal), hostOps1_1] : List (List (HloOp τ sig (Elt Ideal)))).flatten = hostOps1 ++ hostOps1_1 := by
    rw [List.flatten_cons, List.flatten_cons, List.flatten_nil, List.append_nil]
  rw [hl, StableHlo.after_append, last_stretch, take_stretch, take_keeps_dst, take_keeps_weight]
  show aggregate (takeFill (atExit m c (Proc.devRef .tc main_v1)) (atExit m c (Proc.devRef .tc main_arg3)))
      (atExit m c (Proc.devRef .tc main_arg4)) (atExit m c (Proc.devRef .tc main_arg5)) = _
  rw [exit_layer, exit_src, exit_dst, exit_weight]

/-- What the kernel program computes when no source index is out of range. -/
abbrev result (c : Dev nD) : FVec Ideal S100000x64 .f32 :=
  aggregate (takePlain (Cert.Gcn.support (argX m c) (argW m c) (argB m c)) (argSrc m c)) (argDst m c) (argWeight m c)

/-- The run: every weakly fair execution ends with the result buffer at `result` and the six arguments unchanged,
    where every source index is in [-100000, 100000). -/
theorem run (ρ : Dev nD → PrngReg) (hsrc : ∀ c : Dev nD, SrcInRange (argSrc m c)) :
    θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_v8 (Pipeline.mem_restRefs_of main_v8 (by decide) (by decide))).trans (result_eq m c)).trans
        (congrArg (fun rows => aggregate rows (argDst m c) (argWeight m c)) (takeFill_eq_takePlain _ _ (hsrc c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Gcn.Kern

end
-- ==== Proof.RefSide.lean ====
/-
  The reference's linear layer is `support`: its contraction of the two second axes is the sum over `k` of
  x[n, k] · W[o, k], and the bias, broadcast first to one row and then to every row, is b[o] at column `o`.
-/
import proofs.«423177_j17497696764525_3_alg».proof.Proof.Gen.ReferenceIdeal.Run
import proofs.«423177_j17497696764525_3_alg».proof.Proof.Gen.ReferenceIdeal.Read
import proofs.«423177_j17497696764525_3_alg».proof.Proof.Support

noncomputable section

namespace Cert.Gcn.Ref

open Idealize.ShloMosaic Idealize.ShloMosaic.ValueIdx Cert.ReferenceIdeal Cert.ReferenceIdeal.Read

/-- The array the reference gathers rows from is `support` of its first three arguments. -/
theorem support_eq (x : FVec Ideal S100000x64 .f32) (W : FVec Ideal S64x64 .f32) (b : FVec Ideal S64 .f32) :
    val_main_v3 (F := Ideal) x W b = Cert.Gcn.support x W b := by
  funext i
  have e1 : ∀ k : Fin 64, lidx_main_v0 i k = ix2 (i 0 : Fin 100000) k := fun k => funext fun a => Fin.ext (by
    match a with | ⟨0, _⟩ => rfl | ⟨1, _⟩ => rfl)
  have e2 : ∀ k : Fin 64, ridx_main_v0 i k = ix2 (i 1 : Fin 64) k := fun k => funext fun a => Fin.ext (by
    match a with | ⟨0, _⟩ => rfl | ⟨1, _⟩ => rfl)
  have e3 : idx_main_v1 (idx_main_v2 i) = ix1 (i 1 : Fin 64) := funext fun a => Fin.ext (by
    match a with | ⟨0, _⟩ => rfl)
  rw [val_main_v3_apply, val_main_v0_apply, val_main_v2_apply, val_main_v1_apply]
  simp only [e1, e2, e3]
  rfl

end Cert.Gcn.Ref

end
-- ==== Proof.Bridge.lean ====
/-
  The reference computes the same aggregate.

  The reference wraps the source indices the same way, gathers the rows of its linear layer's result with a plain
  gather, scales them by the weights and scatter-adds them at the destinations: operation for operation the kernel
  program's message passing with the plain take, the two programs' dimension records and shape facts being the same
  records and facts.  Its linear layer is `support`, so its result is
      aggregate (takePlain (support x W b) src) dst weight.
-/
import proofs.«423177_j17497696764525_3_alg».proof.Proof.RefSide
import proofs.«423177_j17497696764525_3_alg».proof.Proof.Pieces

noncomputable section

open Idealize.ShloMosaic

namespace Cert.Gcn.Bridge

open Cert.Gcn.Tail Cert.ReferenceIdeal

/-- The reference's last stage is the aggregate of the plain take of its fourth stage (its linear layer). -/
theorem ref_term (x : FVec Ideal S100000x64 .f32) (W : FVec Ideal S64x64 .f32) (b : FVec Ideal S64 .f32)
    (src dst : IVec S1600000 32) (ew : FVec Ideal S1600000 .f32) :
    Read.val_main_v16 (F := Ideal) x W b src dst ew
      = aggregate (takePlain (Read.val_main_v3 (F := Ideal) x W b) src) dst ew := rfl

/-- So the reference's result is the aggregate of the plain take of `support`. -/
theorem ref_result (x : FVec Ideal S100000x64 .f32) (W : FVec Ideal S64x64 .f32) (b : FVec Ideal S64 .f32)
    (src dst : IVec S1600000 32) (ew : FVec Ideal S1600000 .f32) :
    Read.val_main_v16 (F := Ideal) x W b src dst ew
      = aggregate (takePlain (Cert.Gcn.support x W b) src) dst ew := by
  rw [ref_term, Cert.Gcn.Ref.support_eq]

end Cert.Gcn.Bridge

end
-- ==== Proof.Domain.lean ====
/-
  What the precondition says of the source indices.

  The precondition is a conjunction of six `jnp.all`s; the last two are  all(src ≥ -100000)  and  all(src < 100000)
  over signed 32-bit words.  A reduction by `and` that comes out true met only true values, so every source word
  passes both tests.  (The four finiteness conjuncts are not needed: the two programs differ only in how they take
  rows, and no law of the extended reals that fails at an infinity is used.)
-/
import proofs.«423177_j17497696764525_3_alg».proof.Pre_finite_inputs
import proofs.«423177_j17497696764525_3_alg».proof.Proof.Gen.Pre_finite_inputs
import Idealize.ShloMosaic.Lib.ReduceAll
import Idealize.ShloMosaic.Lib.ValueIdx
import Idealize.ShloMosaic.PureOps.Ideal

noncomputable section

namespace Cert.Gcn.Domain

open Idealize.ShloMosaic Cert.Pre_finite_inputs Cert.Pre_finite_inputs.Gen

instance : Subsingleton S_.Idx := ⟨fun a b => funext fun d => d.elim0⟩

/-- Under the precondition every source word is in [-100000, 100000) as a signed number. -/
theorem src_range (x : FVec Ideal S100000x64 .f32) (W : FVec Ideal S64x64 .f32) (b : FVec Ideal S64 .f32)
    (src dst : IVec S1600000 32) (ew : FVec Ideal S1600000 .f32)
    (h : fn (F := Ideal) x W b src dst ew = fun _ => 1#1) (e : S1600000.Idx) :
    IntOp.cmpi .sge (src e) 4294867296#32 = 1#1 ∧ IntOp.cmpi .slt (src e) 100000#32 = 1#1 := by
  have h0 := congrFun h ValueIdx.ix0
  unfold fn fn_part1 at h0
  dsimp only at h0
  obtain ⟨h1, hlt⟩ := IntOp.andi_eq_one.1 h0
  obtain ⟨-, hge⟩ := IntOp.andi_eq_one.1 h1
  exact ⟨Host.reduce_andi_all _ _ _ _ _ hge e, Host.reduce_andi_all _ _ _ _ _ hlt e⟩

end Cert.Gcn.Domain

end
-- ==== Proof.lean ====
/-
  A graph-convolution layer: a linear layer on the node features, then message passing along the edges.

      support = x · Wᵀ + b                               (100000 × 64)
      out[d]  = Σ over edges e with dst[e] = d of  weight[e] · support[src[e]]

  The kernel program computes `support` by a tiled matrix product on the accelerator (ten blocks of 10000 rows, the
  weights transposed beforehand, the operands narrowed to bfloat16, which is the identity on the extended reals) and
  does the message passing with a fill-mode take, the edge-weight product and a scatter-add; the reference computes
  `support` by one contraction and does the message passing with a plain (clamping) gather.

  * Both linear layers are the function `support` (Support.lean): the kernel's array after its ten write-backs
    (Payload.lean, KernelArray.lean), the reference's fourth stage (RefSide.lean).  Only a re-indexing of a finite
    sum is used, which holds on the extended reals without any finiteness.
  * Both message passings wrap a negative source index by adding 100000.  The fill-mode take then tests
    0 ≤ index ≤ 99999 and puts a fill value where the test fails; the plain gather clamps instead.  The precondition
    says every source index is in [-100000, 100000) — the indices at which the reference does not read out of range —
    (Domain.lean), so the wrapped index is always a row (Wrap.lean), the test never fails and the fill-mode take is
    the plain take (Mask.lean).
  * With the same rows taken, the two programs apply the same weight product and the same scatter-add (Pieces.lean,
    Tail.lean, KernelResult.lean, Bridge.lean), so their results are equal, whatever the destinations are.

  The three frame claims are the generated frames of the two kernel programs and the reference's generated run with its
  result dropped; the idealization rewrote nothing, so `preserves` is trivial.
-/
import proofs.«423177_j17497696764525_3_alg».proof.Defs
import proofs.«423177_j17497696764525_3_alg».proof.Proof.Gen.Kernel
import proofs.«423177_j17497696764525_3_alg».proof.Proof.Gen.Kernel.Skeleton
import proofs.«423177_j17497696764525_3_alg».proof.Proof.Gen.Kernel.Launch
import proofs.«423177_j17497696764525_3_alg».proof.Proof.Gen.Kernel.Points
import proofs.«423177_j17497696764525_3_alg».proof.Proof.Gen.Kernel.Frame
import proofs.«423177_j17497696764525_3_alg».proof.Proof.Gen.KernelIdeal
import proofs.«423177_j17497696764525_3_alg».proof.Proof.Gen.KernelIdeal.Skeleton
import proofs.«423177_j17497696764525_3_alg».proof.Proof.Gen.KernelIdeal.Launch
import proofs.«423177_j17497696764525_3_alg».proof.Proof.Gen.KernelIdeal.Points
import proofs.«423177_j17497696764525_3_alg».proof.Proof.Gen.KernelIdeal.Frame
import proofs.«423177_j17497696764525_3_alg».proof.Proof.Gen.ReferenceIdeal
import proofs.«423177_j17497696764525_3_alg».proof.Proof.Gen.ReferenceIdeal.Run
import proofs.«423177_j17497696764525_3_alg».proof.Proof.Gen.ReferenceIdeal.Read
import proofs.«423177_j17497696764525_3_alg».proof.Proof.Gen.Pre_finite_inputs
import proofs.«423177_j17497696764525_3_alg».proof.Proof.KernelResult
import proofs.«423177_j17497696764525_3_alg».proof.Proof.Bridge
import proofs.«423177_j17497696764525_3_alg».proof.Proof.Domain
import Idealize.ShloMosaic.Adequacy
import Idealize.ShloMosaic.Init

noncomputable section

namespace Cert.Proof

open Idealize.ShloMosaic Idealize.SL.Sem

/-- The word-level kernel program runs and keeps its arguments: its generated frame. -/
theorem frame_kernel : Cert.frame_Kernel := fun m ρ _ => Cert.Kernel.Gen.frame m ρ

/-- The same for the idealized kernel program. -/
theorem frame_ideal : Cert.frame_KernelIdeal := fun m ρ _ => Cert.KernelIdeal.Gen.frame m ρ

/-- The reference runs and keeps its arguments: its generated run, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- From memories agreeing on the six arguments, with every source index in [-100000, 100000), both programs end
    with  aggregate (takePlain (support x W b) src) dst weight  in their result buffers. -/
theorem algebraic : Cert.algebraic_KernelIdeal_ReferenceIdeal := by
  intro m ρ m' ρ' hpre hagree
  have hsrc : ∀ c, Cert.Gcn.Tail.SrcInRange (Cert.Gcn.Kern.argSrc m c) := fun c e =>
    Cert.Gcn.Domain.src_range _ _ _ _ _ _ (hpre c) e
  refine ⟨fun c => Cert.Gcn.Kern.result m c, Cert.Gcn.Kern.run m ρ hsrc, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact (Cert.ReferenceIdeal.Read.val_main_v16_eq _ _ _ _ _ _).trans (Cert.Gcn.Bridge.ref_result _ _ _ _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_ref, trivial, algebraic⟩

end Cert.Proof

end
